-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S_ : Shape := ⟨0, ![]⟩

class Facts : Prop where
  bcast_S_S512x256x1000 : S_.BroadcastsInDim S512x256x1000 (![] : Fin 0 → Fin S512x256x1000.rank)
  reducesTo_S512x256x1000_S_d0_1_2 : S512x256x1000.ReducesTo [0, 1, 2] S_
  h_S_ : 0 < S_.numel
  bcast_S_S3x1000 : S_.BroadcastsInDim S3x1000 (![] : Fin 0 → Fin S3x1000.rank)
  reducesTo_S3x1000_S_d0_1 : S3x1000.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S512x256x1000 .f32) (main_arg1 : FVec F S3x1000 .f32) (main_arg2 : FVec F S128x768 .f32) (main_arg3 : FVec F S128 .f32) : IVec S_ 1 :=
  let main_v0 : FVec F S512x256x1000 .f32 := Host.absf main_arg0
  let main_cst : FVec F S_ .f32 := constant S_ .f32 0x7F800000#32
  let main_v1 : FVec F S512x256x1000 .f32 := broadcastInDim S512x256x1000 ![] bcast_S_S512x256x1000 main_cst
  let main_v2 : IVec S512x256x1000 1 := cmpf .olt main_v0 main_v1
  let main_c : IVec S_ 1 := constantI S_ 1 1#1
  let main_v3 : IVec S_ 1 := (fun x v => Host.reduce IntOp.andi x v reducesTo_S512x256x1000_S_d0_1_2 h_S_) main_v2 main_c
  let main_v4 : FVec F S3x1000 .f32 := Host.absf main_arg1
  let main_cst_0 : FVec F S_ .f32 := constant S_ .f32 0x7F800000#32
  let main_v5 : FVec F S3x1000 .f32 := broadcastInDim S3x1000 ![] bcast_S_S3x1000 main_cst_0
  let main_v6 : IVec S3x1000 1 := cmpf .olt main_v4 main_v5
  let main_c_1 : IVec S_ 1 := constantI S_ 1 1#1
  let main_v7 : IVec S_ 1 := (fun x v => Host.reduce IntOp.andi x v reducesTo_S3x1000_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S512x128 : Shape := ⟨2, ![512, 128]⟩
abbrev S16x256x1000 : Shape := ⟨3, ![16, 256, 1000]⟩
abbrev S16x128 : Shape := ⟨2, ![16, 128]⟩
abbrev S4096x1000 : Shape := ⟨2, ![4096, 1000]⟩
abbrev S1000x3 : Shape := ⟨2, ![1000, 3]⟩
abbrev S4096x3 : Shape := ⟨2, ![4096, 3]⟩
abbrev S16x768 : Shape := ⟨2, ![16, 768]⟩
abbrev S768x128 : Shape := ⟨2, ![768, 128]⟩
abbrev S1x128 : Shape := ⟨2, ![1, 128]⟩

abbrev nBuf : Space → Nat
  | .hbm => 5
  | .vmem => 7
  | .smem => 0
  | _ => 0

abbrev bufTy : (tb : Table) → Fin (tcTables nBuf tb) → BufTy
  | .hbm, ⟨0, _⟩ => ⟨S512x256x1000, .f32⟩
  | .hbm, ⟨1, _⟩ => ⟨S3x1000, .f32⟩
  | .hbm, ⟨2, _⟩ => ⟨S128x768, .f32⟩
  | .hbm, ⟨3, _⟩ => ⟨S128, .f32⟩
  | .hbm, ⟨4, _⟩ => ⟨S512x128, .f32⟩
  | .local _ .vmem, ⟨0, _⟩ => ⟨S16x256x1000, .f32⟩
  | .local _ .vmem, ⟨1, _⟩ => ⟨S16x256x1000, .f32⟩
  | .local _ .vmem, ⟨2, _⟩ => ⟨S3x1000, .f32⟩
  | .local _ .vmem, ⟨3, _⟩ => ⟨S128x768, .f32⟩
  | .local _ .vmem, ⟨4, _⟩ => ⟨S128, .f32⟩
  | .local _ .vmem, ⟨5, _⟩ => ⟨S16x128, .f32⟩
  | .local _ .vmem, ⟨6, _⟩ => ⟨S16x128, .f32⟩
  | _, _ => ⟨S512x256x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x256x1000_S16x256x1000_0_0_0 : ∀ a, (![0, 0, 0] : Fin 3 → Nat) a + S16x256x1000.size a ≤ S16x256x1000.size a
  h_S16x256x1000 : 0 < S16x256x1000.numel
  shapeCasts_S16x256x1000_S4096x1000 : S16x256x1000.ShapeCasts S4096x1000
  inb_S3x1000_S3x1000_0_0 : ∀ a, (![0, 0] : Fin 2 → Nat) a + S3x1000.size a ≤ S3x1000.size a
  h_S3x1000 : 0 < S3x1000.numel
  transposes_S3x1000_p1_0_S1000x3 : S3x1000.Transposes [1, 0] S1000x3
  shapeCasts_S4096x3_S16x768 : S4096x3.ShapeCasts S16x768
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S128_S128_0 : ∀ a, (![0] : Fin 1 → Nat) a + S128.size a ≤ S128.size a
  h_S128 : 0 < S128.numel
  shapeCasts_S128_S1x128 : S128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  dot_S4096x1000_S1000x3_S4096x3_1_0_0_1_n_n_wf : DotDims.WF S4096x1000 S1000x3 S4096x3 [1] [0] [0] [1] [] []
  dot_S16x768_S768x128_S16x128_1_0_0_1_n_n_wf : DotDims.WF S16x768 S768x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1000.size a ≤ S512x256x1000.size a
  hwx0_0 : ∀ i : grid0.Coords, EltTy.bits .f32 = 32 ∨ (Rect.block (s := S512x256x1000) S16x256x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1000.size a ≤ S3x1000.size a
  hwx0_1 : ∀ i : grid0.Coords, EltTy.bits .f32 = 32 ∨ (Rect.block (s := S3x1000) S3x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S512x128.size a
  hwx0_4 : ∀ i : grid0.Coords, EltTy.bits .f32 = 32 ∨ (Rect.block (s := S512x128) S16x128.size (cc0_transform_4 i) (hinb0_4 i)).WholeWords (EltTy.packing .f32)

variable [Facts₀]

def dot_S4096x1000_S1000x3_S4096x3_1_0_0_1_n_n : DotDims S4096x1000 S1000x3 S4096x3 where
  lhsContracting := [1]
  rhsContracting := [0]
  lhsNonContracting := [0]
  rhsNonContracting := [1]
  lhsBatch := []
  rhsBatch := []
  wf := dot_S4096x1000_S1000x3_S4096x3_1_0_0_1_n_n_wf
def dot_S16x768_S768x128_S16x128_1_0_0_1_n_n : DotDims S16x768 S768x128 S16x128 where
  lhsContracting := [1]
  rhsContracting := [0]
  lhsNonContracting := [0]
  rhsNonContracting := [1]
  lhsBatch := []
  rhsBatch := []
  wf := dot_S16x768_S768x128_S16x128_1_0_0_1_n_n_wf

abbrev win0_0 : Pipeline.Window sig grid0 :=
  Pipeline.Window.ofSpec (Memref.whole main_arg0) S16x256x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256x1000 : Shape := ⟨3, ![512, 256, 1000]⟩
abbrev S3x1000 : Shape := ⟨2, ![3, 1000]⟩
abbrev S128x768 : Shape := ⟨2, ![128, 768]⟩
abbrev S128 : Shape := ⟨1, ![128]⟩
abbrev S512x256x3 : Shape := ⟨3, ![512, 256, 3]⟩
abbrev S512x768 : Shape := ⟨2, ![512, 768]⟩
abbrev S768x128 : Shape := ⟨2, ![768, 128]⟩
abbrev S512x128 : Shape := ⟨2, ![512, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S512x256x1000, .f32⟩
  | .hbm, ⟨1, _⟩ => ⟨S3x1000, .f32⟩
  | .hbm, ⟨2, _⟩ => ⟨S128x768, .f32⟩
  | .hbm, ⟨3, _⟩ => ⟨S128, .f32⟩
  | .hbm, ⟨4, _⟩ => ⟨S512x256x3, .f32⟩
  | .hbm, ⟨5, _⟩ => ⟨S512x768, .f32⟩
  | .hbm, ⟨6, _⟩ => ⟨S768x128, .f32⟩
  | .hbm, ⟨7, _⟩ => ⟨S512x128, .f32⟩
  | .hbm, ⟨8, _⟩ => ⟨S1x128, .f32⟩
  | .hbm, ⟨9, _⟩ => ⟨S512x128, .f32⟩
  | .hbm, ⟨10, _⟩ => ⟨S512x128, .f32⟩
  | _, _ => ⟨S512x256x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  shapeCasts_S512x256x3_S512x768 : S512x256x3.ShapeCasts S512x768
  transposes_S128x768_S768x128_1_0 : S128x768.Transposes [1, 0] S768x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  dot_S512x256x1000_S3x1000_S512x256x3_2_1_01_0_n_n_wf : DotDims.WF S512x256x1000 S3x1000 S512x256x3 [2] [1] [0, 1] [0] [] []
  dot_S512x768_S768x128_S512x128_1_0_0_1_n_n_wf : DotDims.WF S512x768 S768x128 S512x128 [1] [0] [0] [1] [] []

variable [Facts₀]

def dot_S512x256x1000_S3x1000_S512x256x3_2_1_01_0_n_n : DotDims S512x256x1000 S3x1000 S512x256x3 where
  lhsContracting := [2]
  rhsContracting := [1]
  lhsNonContracting := [0, 1]
  rhsNonContracting := [0]
  lhsBatch := []
  rhsBatch := []
  wf := dot_S512x256x1000_S3x1000_S512x256x3_2_1_01_0_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf

class Facts : Prop extends Facts₀ where

variable [Facts]
-- ==== Proof.Spec.lean ====
/-
  The function both programs compute, stated once and away from either program.

  Each of 512 samples carries 256 rows of length 1000. Every row is embedded into three numbers by the
  same 3 × 1000 matrix; the 256 triples of a sample are laid side by side into one vector of length 768,
  row-major, so that position `k` holds component `k % 3` of the embedding of row `k / 3`; that vector
  goes through a dense layer with 128 outputs, 768 weights per output, and a bias.

  One output entry therefore depends on four things only: the sample's 256 × 1000 slab, the embedding
  matrix, the 768 weights of its output lane, and that lane's bias:

      entry = (Σ_{k < 768} (Σ_{l < 1000} slab (k / 3) l · emb (k % 3) l) · lane k) + bias.

  `entry` is that expression over plain coordinates. `rows` reads it off arrays with any number `n` of
  samples, so that the whole 512-sample array and a 16-sample block of it are the same function of
  their own contents.
-/
import Idealize.ShloMosaic.PureOps.Ideal
import Idealize.ShloMosaic.Lib.ValueIdx

noncomputable section

open scoped BigOperators

namespace Cert.Spec

open Idealize.ShloMosaic Idealize.ShloMosaic.ValueIdx

/-- The row whose embedding sits at position `k` of the flattened vector. -/
def rowOf (k : Fin 768) : Fin 256 := ⟨k.val / 3, by have := k.isLt; omega⟩

/-- The component of that embedding which sits at position `k`. -/
def compOf (k : Fin 768) : Fin 3 := ⟨k.val % 3, Nat.mod_lt _ (by decide)⟩

/-- One output entry from the sample's slab, the embedding matrix, the lane's weights and its bias. -/
def entry (slab : Fin 256 → Fin 1000 → EReal) (emb : Fin 3 → Fin 1000 → EReal) (lane : Fin 768 → EReal)
    (bias : EReal) : EReal :=
  (∑ k : Fin 768, (∑ l : Fin 1000, slab (rowOf k) l * emb (compOf k) l) * lane k) + bias

/-- The `n × 128` result of `n` samples: entry `(s, o)` is `entry` of sample `s`'s slab and lane `o`. -/
def rows {n : Nat} (x : (⟨3, ![n, 256, 1000]⟩ : Shape).Idx → EReal) (emb : (⟨2, ![3, 1000]⟩ : Shape).Idx → EReal)
    (w : (⟨2, ![128, 768]⟩ : Shape).Idx → EReal) (b : (⟨1, ![128]⟩ : Shape).Idx → EReal) :
    (⟨2, ![n, 128]⟩ : Shape).Idx → EReal :=
  fun i => entry (fun r l => x (ix3 (i 0) r l)) (fun e l => emb (ix2 e l)) (fun k => w (ix2 (i 1) k)) (b (ix1 (i 1)))

/-- `rows` at an index given by its coordinates. -/
theorem rows_ix2 {n : Nat} (x : (⟨3, ![n, 256, 1000]⟩ : Shape).Idx → EReal) (emb : (⟨2, ![3, 1000]⟩ : Shape).Idx → EReal)
    (w : (⟨2, ![128, 768]⟩ : Shape).Idx → EReal) (b : (⟨1, ![128]⟩ : Shape).Idx → EReal) (s : Fin n) (o : Fin 128) :
    rows x emb w b (ix2 s o)
      = entry (fun r l => x (ix3 s r l)) (fun e l => emb (ix2 e l)) (fun k => w (ix2 o k)) (b (ix1 o)) := rfl

end Cert.Spec

end
-- ==== Proof.RefSpec.lean ====
/-
  The reference computes `Spec.rows`.

  Its seven host operations, read at an output index `(s, o)`: a contraction of `x` with the embedding matrix
  over the last axis gives a 512 × 256 × 3 array; the reshape to 512 × 768 reads position `(s, k)` at the
  row-major place `768 s + k`, that is at `(s, k / 3, k % 3)` since `k < 768`; the transposed second-layer
  matrix at `(k, o)` is the matrix at `(o, k)`; the second contraction sums over `k`; the bias, broadcast twice,
  reads lane `o`. The sums are the ones of `Spec.entry` term by term, so nothing but these four index
  identities is needed: no rearrangement of a sum, no law of the extended reals.
-/
import proofs.«181206_j13022340841686_1_alg».proof.Proof.Gen.ReferenceIdeal.Read
import proofs.«181206_j13022340841686_1_alg».proof.Proof.Spec

noncomputable section

open scoped BigOperators

namespace Cert.RefSpec

open Cert.ReferenceIdeal Cert.ReferenceIdeal.Gen Cert.ReferenceIdeal.Read
open Idealize.ShloMosaic Idealize.ShloMosaic.ValueIdx

/-- Through the reshape and the first contraction, position `k` of sample `i 0` reads `x` at row `k / 3`. -/
theorem slab_idx (i : S512x128.Idx) (k : Fin 768) (l : Fin 1000) :
    lidx_main_v0 (idx_main_v1 (lidx_main_v3 i k)) l = ix3 (i 0) (Spec.rowOf k) l := by
  funext a; apply Fin.ext
  have hk : k.val < 768 := k.isLt
  match a with
  | ⟨0, _⟩ => show ((i 0).val * 768 + k.val) / 768 = (i 0).val; omega
  | ⟨1, _⟩ => show ((i 0).val * 768 + k.val) / 3 % 256 = k.val / 3; omega
  | ⟨2, _⟩ => rfl

/-- … and the embedding matrix at component `k % 3`. -/
theorem emb_idx (i : S512x128.Idx) (k : Fin 768) (l : Fin 1000) :
    ridx_main_v0 (idx_main_v1 (lidx_main_v3 i k)) l = ix2 (Spec.compOf k) l := by
  funext a; apply Fin.ext
  have hk : k.val < 768 := k.isLt
  match a with
  | ⟨0, _⟩ => show ((i 0).val * 768 + k.val) % 3 = k.val % 3; omega
  | ⟨1, _⟩ => rfl

/-- The transposed second-layer matrix at `(k, o)` is the matrix at `(o, k)`. -/
theorem lane_idx (i : S512x128.Idx) (k : Fin 768) : idx_main_v2 (ridx_main_v3 i k) = ix2 (i 1) k := by
  funext a; apply Fin.ext
  match a with
  | ⟨0, _⟩ => rfl
  | ⟨1, _⟩ => rfl

/-- The bias, broadcast to a row and then to every sample, reads its lane. -/
theorem bias_idx (i : S512x128.Idx) : idx_main_v4 (idx_main_v5 i) = ix1 (i 1) := by
  funext a; apply Fin.ext
  match a with
  | ⟨0, _⟩ => rfl

/-- The reference's result, as a function of its four arguments, is `Spec.rows` of them. -/
theorem reference_eq (x0 : (⟨S512x256x1000, .f32⟩ : BufTy).Contents (Elt Ideal)) (x1 : (⟨S3x1000, .f32⟩ : BufTy).Contents (Elt Ideal))
    (x2 : (⟨S128x768, .f32⟩ : BufTy).Contents (Elt Ideal)) (x3 : (⟨S128, .f32⟩ : BufTy).Contents (Elt Ideal)) :
    val_main_v6 (F := Ideal) x0 x1 x2 x3 = Spec.rows (n := 512) x0 x1 x2 x3 := by
  funext i
  rw [val_main_v6_apply, val_main_v3_apply, val_main_v5_apply, val_main_v4_apply, bias_idx]
  simp only [val_main_v1_apply, val_main_v0_apply, val_main_v2_apply, slab_idx, emb_idx, lane_idx]
  rfl

end Cert.RefSpec

end
-- ==== Proof.Payload.lean ====
/-
  What the kernel body stores, entry by entry.

  At one grid point the body holds a 16-sample slab `v0`, the embedding matrix `v2`, the second-layer matrix `v6`
  and the bias `v9`, and stores one 16 × 128 block. Reading that block at `(s, o)`:
  * the bias, viewed as one row and repeated down the 16 samples, gives `v9 o`;
  * the second product, into a zero accumulator, is `Σ_{k < 768} flat (s, k) · v6ᵀ (k, o)`, and the transposed matrix at
    `(k, o)` is `v6 (o, k)`;
  * `flat` is the 4096 × 3 result of the first product viewed as 16 × 768: row-major place `768 s + k` of a 3-wide array
    is row `256 s + k / 3`, column `k % 3`;
  * the first product, into a zero accumulator, at that row and column is `Σ_{l < 1000} flat₀ (256 s + k / 3, l) · v2ᵀ (l, k % 3)`;
  * `flat₀` is the slab viewed as 4096 × 1000: row `256 s + q` of it, for `q < 256`, is row `q` of sample `s`.
  Together: the stored entry is `Spec.entry` of sample `s`'s slab, the embedding matrix, lane `o`'s weights and lane
  `o`'s bias, that is, the block is `Spec.rows` of the four loaded values.
-/
import proofs.«181206_j13022340841686_1_alg».proof.Proof.Gen.KernelIdeal.Skeleton
import proofs.«181206_j13022340841686_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelValue

open Cert.KernelIdeal Cert.KernelIdeal.Gen
open Idealize.ShloMosaic Idealize.ShloMosaic.ValueIdx

/-! ## The two products' operand indices, axis by axis -/

theorem lhs_emb_0 (i : S4096x3.Idx) (q : dot_S4096x1000_S1000x3_S4096x3_1_0_0_1_n_n.contr.Idx) :
    (dot_S4096x1000_S1000x3_S4096x3_1_0_0_1_n_n.lhsIdx i q 0).val = (i 0).val := by
  unfold DotDims.lhsIdx
  rw [dif_neg (show ¬(0 : Fin S4096x1000.rank) ∈ dot_S4096x1000_S1000x3_S4096x3_1_0_0_1_n_n.lhsBatch by decide), dif_pos (show (0 : Fin S4096x1000.rank) ∈ dot_S4096x1000_S1000x3_S4096x3_1_0_0_1_n_n.lhsNonContracting by decide)]
  rfl
theorem lhs_emb_1 (i : S4096x3.Idx) (q : dot_S4096x1000_S1000x3_S4096x3_1_0_0_1_n_n.contr.Idx) :
    (dot_S4096x1000_S1000x3_S4096x3_1_0_0_1_n_n.lhsIdx i q 1).val = (q ⟨0, by decide⟩).val :=
  dot_S4096x1000_S1000x3_S4096x3_1_0_0_1_n_n.lhsIdx_val_of_single rfl i q
theorem rhs_emb_0 (i : S4096x3.Idx) (q : dot_S4096x1000_S1000x3_S4096x3_1_0_0_1_n_n.contr.Idx) :
    (dot_S4096x1000_S1000x3_S4096x3_1_0_0_1_n_n.rhsIdx i q 0).val = (q ⟨0, by decide⟩).val :=
  dot_S4096x1000_S1000x3_S4096x3_1_0_0_1_n_n.rhsIdx_val_of_single rfl i q
theorem rhs_emb_1 (i : S4096x3.Idx) (q : dot_S4096x1000_S1000x3_S4096x3_1_0_0_1_n_n.contr.Idx) :
    (dot_S4096x1000_S1000x3_S4096x3_1_0_0_1_n_n.rhsIdx i q 1).val = (i 1).val := by
  unfold DotDims.rhsIdx
  rw [dif_neg (show ¬(1 : Fin S1000x3.rank) ∈ dot_S4096x1000_S1000x3_S4096x3_1_0_0_1_n_n.rhsBatch by decide), dif_pos (show (1 : Fin S1000x3.rank) ∈ dot_S4096x1000_S1000x3_S4096x3_1_0_0_1_n_n.rhsNonContracting by decide)]
  rfl

theorem lhs_fc_0 (i : S16x128.Idx) (q : dot_S16x768_S768x128_S16x128_1_0_0_1_n_n.contr.Idx) :
    (dot_S16x768_S768x128_S16x128_1_0_0_1_n_n.lhsIdx i q 0).val = (i 0).val := by
  unfold DotDims.lhsIdx
  rw [dif_neg (show ¬(0 : Fin S16x768.rank) ∈ dot_S16x768_S768x128_S16x128_1_0_0_1_n_n.lhsBatch by decide), dif_pos (show (0 : Fin S16x768.rank) ∈ dot_S16x768_S768x128_S16x128_1_0_0_1_n_n.lhsNonContracting by decide)]
  rfl
theorem lhs_fc_1 (i : S16x128.Idx) (q : dot_S16x768_S768x128_S16x128_1_0_0_1_n_n.contr.Idx) :
    (dot_S16x768_S768x128_S16x128_1_0_0_1_n_n.lhsIdx i q 1).val = (q ⟨0, by decide⟩).val :=
  dot_S16x768_S768x128_S16x128_1_0_0_1_n_n.lhsIdx_val_of_single rfl i q
theorem rhs_fc_0 (i : S16x128.Idx) (q : dot_S16x768_S768x128_S16x128_1_0_0_1_n_n.contr.Idx) :
    (dot_S16x768_S768x128_S16x128_1_0_0_1_n_n.rhsIdx i q 0).val = (q ⟨0, by decide⟩).val :=
  dot_S16x768_S768x128_S16x128_1_0_0_1_n_n.rhsIdx_val_of_single rfl i q
theorem rhs_fc_1 (i : S16x128.Idx) (q : dot_S16x768_S768x128_S16x128_1_0_0_1_n_n.contr.Idx) :
    (dot_S16x768_S768x128_S16x128_1_0_0_1_n_n.rhsIdx i q 1).val = (i 1).val := by
  unfold DotDims.rhsIdx
  rw [dif_neg (show ¬(1 : Fin S768x128.rank) ∈ dot_S16x768_S768x128_S16x128_1_0_0_1_n_n.rhsBatch by decide), dif_pos (show (1 : Fin S768x128.rank) ∈ dot_S16x768_S768x128_S16x128_1_0_0_1_n_n.rhsNonContracting by decide)]
  rfl

/-! ## The two products at an entry -/

/-- The first product into zeros: a plain sum over the 1000 positions of a row. -/
theorem emb_product_apply (y : FVec Ideal S4096x1000 .f32) (z : FVec Ideal S1000x3 .f32) (r : Fin 4096) (c : Fin 3) :
    matmul dot_S4096x1000_S1000x3_S4096x3_1_0_0_1_n_n none y z (constant (F := Ideal) S4096x3 .f32 0x00000000#32) (ix2 r c)
      = ∑ l : Fin 1000, y (ix2 r l) * z (ix2 l c) := by
  refine (Ideal.matmul_constant_zero_apply dot_S4096x1000_S1000x3_S4096x3_1_0_0_1_n_n none y z (ix2 r c)).trans ?_
  rw [← Equiv.sum_comp (contrEquiv1 dot_S4096x1000_S1000x3_S4096x3_1_0_0_1_n_n 1000 rfl rfl).symm]
  refine Finset.sum_congr rfl fun l _ => ?_
  have hk := contrEquiv1_symm_val dot_S4096x1000_S1000x3_S4096x3_1_0_0_1_n_n 1000 rfl rfl l
  have el : dot_S4096x1000_S1000x3_S4096x3_1_0_0_1_n_n.lhsIdx (ix2 r c) ((contrEquiv1 dot_S4096x1000_S1000x3_S4096x3_1_0_0_1_n_n 1000 rfl rfl).symm l) = ix2 r l := funext fun a => Fin.ext (by
    match a with
    | ⟨0, _⟩ => exact lhs_emb_0 _ _
    | ⟨1, _⟩ => exact (lhs_emb_1 _ _).trans hk)
  have er : dot_S4096x1000_S1000x3_S4096x3_1_0_0_1_n_n.rhsIdx (ix2 r c) ((contrEquiv1 dot_S4096x1000_S1000x3_S4096x3_1_0_0_1_n_n 1000 rfl rfl).symm l) = ix2 l c := funext fun a => Fin.ext (by
    match a with
    | ⟨0, _⟩ => exact (rhs_emb_0 _ _).trans hk
    | ⟨1, _⟩ => exact rhs_emb_1 _ _)
  rw [el, er]

/-- The second product into zeros: a plain sum over the 768 flattened positions. -/
theorem fc_product_apply (y : FVec Ideal S16x768 .f32) (z : FVec Ideal S768x128 .f32) (r : Fin 16) (c : Fin 128) :
    matmul dot_S16x768_S768x128_S16x128_1_0_0_1_n_n none y z (constant (F := Ideal) S16x128 .f32 0x00000000#32) (ix2 r c)
      = ∑ k : Fin 768, y (ix2 r k) * z (ix2 k c) := by
  refine (Ideal.matmul_constant_zero_apply dot_S16x768_S768x128_S16x128_1_0_0_1_n_n none y z (ix2 r c)).trans ?_
  rw [← Equiv.sum_comp (contrEquiv1 dot_S16x768_S768x128_S16x128_1_0_0_1_n_n 768 rfl rfl).symm]
  refine Finset.sum_congr rfl fun k _ => ?_
  have hk := contrEquiv1_symm_val dot_S16x768_S768x128_S16x128_1_0_0_1_n_n 768 rfl rfl k
  have el : dot_S16x768_S768x128_S16x128_1_0_0_1_n_n.lhsIdx (ix2 r c) ((contrEquiv1 dot_S16x768_S768x128_S16x128_1_0_0_1_n_n 768 rfl rfl).symm k) = ix2 r k := funext fun a => Fin.ext (by
    match a with
    | ⟨0, _⟩ => exact lhs_fc_0 _ _
    | ⟨1, _⟩ => exact (lhs_fc_1 _ _).trans hk)
  have er : dot_S16x768_S768x128_S16x128_1_0_0_1_n_n.rhsIdx (ix2 r c) ((contrEquiv1 dot_S16x768_S768x128_S16x128_1_0_0_1_n_n 768 rfl rfl).symm k) = ix2 k c := funext fun a => Fin.ext (by
    match a with
    | ⟨0, _⟩ => exact (rhs_fc_0 _ _).trans hk
    | ⟨1, _⟩ => exact rhs_fc_1 _ _)
  rw [el, er]

/-! ## The two views -/

/-- The slab viewed as 4096 × 1000: row `256 s + q` is row `q` of sample `s`. -/
theorem slab_view_apply (v : S16x256x1000.Idx → EReal) (h : S16x256x1000.ShapeCasts S4096x1000) (s : Fin 16) (q : Fin 256) (l : Fin 1000)
    (hr : s.val * 256 + q.val < 4096) :
    shapeCast S4096x1000 v h (ix2 (⟨s.val * 256 + q.val, hr⟩ : Fin 4096) l) = v (ix3 s q l) :=
  shapeCast_apply v h _ _ (by
    rw [Shape.rowMajor_val_three, Shape.rowMajor_val_two]
    rfl)

/-- The 4096 × 3 array viewed as 16 × 768: position `(s, k)` is row `256 s + k / 3`, column `k % 3`. -/
theorem flat_view_apply (v : S4096x3.Idx → EReal) (h : S4096x3.ShapeCasts S16x768) (s : Fin 16) (k : Fin 768)
    (hr : s.val * 256 + (Spec.rowOf k).val < 4096) :
    shapeCast S16x768 v h (ix2 s k) = v (ix2 (⟨s.val * 256 + (Spec.rowOf k).val, hr⟩ : Fin 4096) (Spec.compOf k)) :=
  shapeCast_apply v h _ _ (by
    rw [Shape.rowMajor_val_two, Shape.rowMajor_val_two]
    show (s.val * 256 + k.val / 3) * 3 + k.val % 3 = s.val * 768 + k.val
    omega)

/-- The bias as one row, repeated down the samples, reads its lane. -/
theorem bias_rows_apply (v : S128.Idx → EReal) (h : S128.ShapeCasts S1x128) (h' : S1x128.Broadcasts S16x128) (s : Fin 16) (o : Fin 128) :
    broadcastTo S16x128 (shapeCast S1x128 v h) h' (ix2 s o) = v (ix1 o) := by
  refine (broadcastTo_apply (shapeCast S1x128 v h) h' (ix2 s o) (ix2 (0 : Fin 1) o) (fun a => ?_)).trans ?_
  · match a with
    | ⟨0, _⟩ => rfl
    | ⟨1, _⟩ => rfl
  · exact shapeCast_apply v h _ _ (by
      rw [Shape.rowMajor_val_one, Shape.rowMajor_val_two]
      show o.val = 0 * 128 + o.val
      omega)

/-! ## The stored block -/

/-- The body's one stored value, read at `(s, o)`, is `Spec.entry` of sample `s`'s slab and lane `o`. -/
theorem stored_apply (v0 : Vec Ideal S16x256x1000 .f32) (v2 : Vec Ideal S3x1000 .f32) (v6 : Vec Ideal S128x768 .f32) (v9 : Vec Ideal S128 .f32)
    (s : Fin 16) (o : Fin 128) :
    k0_pay1 (F := Ideal) v0 v2 v6 v9 (ix2 s o)
      = Spec.entry (fun r l => v0 (ix3 s r l)) (fun e l => v2 (ix2 e l)) (fun k => v6 (ix2 o k)) (v9 (ix1 o)) := by
  unfold k0_pay1 Spec.entry
  dsimp only
  rw [addf_apply, bias_rows_apply, fc_product_apply]
  congr 1
  refine Finset.sum_congr rfl fun k _ => ?_
  have hr : s.val * 256 + (Spec.rowOf k).val < 4096 := by
    have := s.isLt; have := (Spec.rowOf k).isLt; omega
  rw [transpose_ix2_apply, flat_view_apply _ _ s k hr, emb_product_apply]
  congr 1
  refine Finset.sum_congr rfl fun l _ => ?_
  rw [slab_view_apply _ _ s (Spec.rowOf k) l hr, transpose_ix2_apply]

/-- The stored block is `Spec.rows` of the four loaded values. -/
theorem stored_eq (v0 : Vec Ideal S16x256x1000 .f32) (v2 : Vec Ideal S3x1000 .f32) (v6 : Vec Ideal S128x768 .f32) (v9 : Vec Ideal S128 .f32) :
    k0_pay1 (F := Ideal) v0 v2 v6 v9 = Spec.rows (n := 16) v0 v2 v6 v9 := by
  funext j
  obtain ⟨s, o, rfl⟩ : ∃ (s : Fin 16) (o : Fin 128), j = ix2 s o := ⟨j 0, j 1, eq_ix2 j⟩
  rw [stored_apply, Spec.rows_ix2]

end Cert.KernelValue

end
-- ==== Proof.Blocks.lean ====
/-
  From the 32 stored blocks to the whole result array.

  Grid point `t` works on samples `16 t … 16 t + 15`: its slab is those sixteen samples of `x`, the three small
  operands are whole at every point, and its 16 × 128 block goes back to rows `16 t … 16 t + 15` of the result.
  The stored block is `Spec.rows` of what the point loaded (Payload), and `Spec.rows` treats each sample by itself,
  so the block is exactly rows `16 t … 16 t + 15` of `Spec.rows` of the four whole arrays. Row `i` of the result lies
  in the block of point `i / 16`, so the 32 blocks cover the array and it ends holding `Spec.rows` of the arguments.
-/
import proofs.«181206_j13022340841686_1_alg».proof.Proof.Gen.KernelIdeal.Value
import proofs.«181206_j13022340841686_1_alg».proof.Proof.Payload

set_option maxRecDepth 16384

noncomputable section

open scoped BigOperators

namespace Cert.KernelValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps over the grid -/

/-- The slab's and the result's block index on the sample axis is the point itself; every other block index is 0. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-! ## What a point loads -/

/-- The sixteen samples point `t` loads, -/
abbrev slabAt (c : Dev nD) (t : Fin cfg0.N) : Vec Ideal S16x256x1000 .f32 := iblk m c 0 t
/-- the embedding matrix, -/
abbrev embAt (c : Dev nD) (t : Fin cfg0.N) : Vec Ideal S3x1000 .f32 := iblk m c 1 t
/-- the second-layer matrix -/
abbrev fcAt (c : Dev nD) (t : Fin cfg0.N) : Vec Ideal S128x768 .f32 := iblk m c 2 t
/-- and the bias, as it finds them. -/
abbrev biasAt (c : Dev nD) (t : Fin cfg0.N) : Vec Ideal S128 .f32 := iblk m c 3 t

/-- Sample `s` of point `t`'s slab is sample `16 t + s` of `x`. -/
theorem slabAt_apply (c : Dev nD) (t : Fin cfg0.N) (s : Fin 16) (r : Fin 256) (l : Fin 1000) (h : t.val * 16 + s.val < 512) :
    slabAt m c t (ix3 s r l) = V m c main_arg0 (ix3 (⟨t.val * 16 + s.val, h⟩ : Fin 512) r l) := by
  obtain ⟨e0, e1, e2, -⟩ := block_indices t
  show V m c main_arg0 (((cfg0.win 0).blk t).view.emb (ix3 s r l)) = _
  refine congrArg (V m c main_arg0) (funext fun a => Fin.ext ?_)
  match a with
  | ⟨0, _⟩ => show win0_0.index t (0 : Fin 3) * 16 + 1 * s.val = t.val * 16 + s.val; omega
  | ⟨1, _⟩ => show win0_0.index t (1 : Fin 3) * 256 + 1 * r.val = r.val; omega
  | ⟨2, _⟩ => show win0_0.index t (2 : Fin 3) * 1000 + 1 * l.val = l.val; omega

/-- The embedding matrix is whole at every point. -/
theorem embAt_apply (c : Dev nD) (t : Fin cfg0.N) (e : Fin 3) (l : Fin 1000) :
    embAt m c t (ix2 e l) = V m c main_arg1 (ix2 e l) := by
  obtain ⟨-, -, -, e0, e1, -⟩ := block_indices t
  show V m c main_arg1 (((cfg0.win 1).blk t).view.emb (ix2 e l)) = _
  refine congrArg (V m c main_arg1) (funext fun a => Fin.ext ?_)
  match a with
  | ⟨0, _⟩ => show win0_1.index t (0 : Fin 2) * 3 + 1 * e.val = e.val; omega
  | ⟨1, _⟩ => show win0_1.index t (1 : Fin 2) * 1000 + 1 * l.val = l.val; omega

/-- So is the second-layer matrix, -/
theorem fcAt_apply (c : Dev nD) (t : Fin cfg0.N) (o : Fin 128) (k : Fin 768) :
    fcAt m c t (ix2 o k) = V m c main_arg2 (ix2 o k) := by
  obtain ⟨-, -, -, -, -, e0, e1, -⟩ := block_indices t
  show V m c main_arg2 (((cfg0.win 2).blk t).view.emb (ix2 o k)) = _
  refine congrArg (V m c main_arg2) (funext fun a => Fin.ext ?_)
  match a with
  | ⟨0, _⟩ => show win0_2.index t (0 : Fin 2) * 128 + 1 * o.val = o.val; omega
  | ⟨1, _⟩ => show win0_2.index t (1 : Fin 2) * 768 + 1 * k.val = k.val; omega

/-- and the bias. -/
theorem biasAt_apply (c : Dev nD) (t : Fin cfg0.N) (o : Fin 128) :
    biasAt m c t (ix1 o) = V m c main_arg3 (ix1 o) := by
  obtain ⟨-, -, -, -, -, -, -, e0, -⟩ := block_indices t
  show V m c main_arg3 (((cfg0.win 3).blk t).view.emb (ix1 o)) = _
  refine congrArg (V m c main_arg3) (funext fun a => Fin.ext ?_)
  match a with
  | ⟨0, _⟩ => show win0_3.index t (0 : Fin 1) * 128 + 1 * o.val = o.val; omega

/-- Entry `(s, o)` of point `t`'s block is entry `(16 t + s, o)` of the result array. -/
theorem out_emb (t : Fin cfg0.N) (s : Fin 16) (o : Fin 128) (h : t.val * 16 + s.val < 512) :
    ((cfg0.win 4).blk t).view.emb (ix2 s o) = ix2 (⟨t.val * 16 + s.val, h⟩ : Fin 512) o := by
  obtain ⟨-, -, -, -, -, -, -, -, e0, e1⟩ := block_indices t
  funext a; apply Fin.ext
  match a with
  | ⟨0, _⟩ => show win0_4.index t (0 : Fin 2) * 16 + 1 * s.val = t.val * 16 + s.val; omega
  | ⟨1, _⟩ => show win0_4.index t (1 : Fin 2) * 128 + 1 * o.val = o.val; omega

/-! ## What a point writes back -/

/-- The result: `Spec.rows` of the four argument arrays as launched. -/
def result (c : Dev nD) : Buf (Elt Ideal) ((c : Thread nD τ).loc main_v0) :=
  Spec.rows (n := 512) (m ((c : Thread nD τ).loc main_arg0)) (m ((c : Thread nD τ).loc main_arg1))
    (m ((c : Thread nD τ).loc main_arg2)) (m ((c : Thread nD τ).loc main_arg3))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` writes back rows `16 t … 16 t + 15` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz2]
  simp only [View.ld_unit_zero (S := S16x256x1000) hz3, View.ld_unit_zero (S := S3x1000) hz2,
    View.ld_unit_zero (S := S128x768) hz2, View.ld_unit_zero (S := S128) hz1]
  funext j
  obtain ⟨s, o, rfl⟩ : ∃ (s : Fin 16) (o : Fin 128), j = ix2 s o := ⟨j 0, j 1, eq_ix2 j⟩
  have ht := point_lt t
  have h : t.val * 16 + s.val < 512 := by have := s.isLt; omega
  show k0_pay1 (F := Ideal) (slabAt m c t) (embAt m c t) (fcAt m c t) (biasAt m c t) (ix2 s o)
    = result m c (((cfg0.win 4).blk t).view.emb (ix2 s o))
  rw [out_emb t s o h]
  refine (stored_apply (slabAt m c t) (embAt m c t) (fcAt m c t) (biasAt m c t) s o).trans ?_
  unfold result
  rw [Spec.rows_ix2]
  simp only [slabAt_apply m c t s _ _ h, embAt_apply, fcAt_apply, biasAt_apply]

/-! ## The blocks cover the array -/

/-- Row `i` lies in point `t`'s block exactly when `16 t ≤ i < 16 t + 16` (and every lane does). -/
theorem mem_blk (t : Fin cfg0.N) (i : S512x128.Idx) :
    i ∈ ((cfg0.win 4).blk t).view.set ↔ ∀ a : Fin 2, win0_4.index t a * S16x128.size a ≤ (i a).val ∧ (i a).val < win0_4.index t a * S16x128.size a + S16x128.size a := by
  show i ∈ ((View.whole main_v0).slice (win0_4.rect t)).set ↔ _
  rw [View.set_slice_whole, Rect.mem_set_unit]
  exact Iff.rfl

/-- Every entry is in the block of the point `row / 16`, which writes back. -/
theorem cover (i : S512x128.Idx) : ∃ t : Fin cfg0.N, (cfg0.win 4).flush t = true ∧ i ∈ ((cfg0.win 4).blk t).view.set := by
  have hi0 : (i 0).val < 512 := (i 0).isLt
  have hi1 : (i 1).val < 128 := (i 1).isLt
  have hlt : (i 0).val / 16 < cfg0.N := by show _ < grid0.N; rw [N_0]; omega
  obtain ⟨-, -, -, -, -, -, -, -, e0, e1⟩ := block_indices ⟨(i 0).val / 16, hlt⟩
  have e0' : win0_4.index ⟨(i 0).val / 16, hlt⟩ (0 : Fin 2) = (i 0).val / 16 := e0
  refine ⟨⟨(i 0).val / 16, hlt⟩, flush0_4 _, ?_⟩
  rw [mem_blk]
  intro a
  match a with
  | ⟨0, _⟩ => show win0_4.index ⟨(i 0).val / 16, hlt⟩ (0 : Fin 2) * 16 ≤ (i 0).val ∧ (i 0).val < win0_4.index ⟨(i 0).val / 16, hlt⟩ (0 : Fin 2) * 16 + 16; omega
  | ⟨1, _⟩ => show win0_4.index ⟨(i 0).val / 16, hlt⟩ (1 : Fin 2) * 128 ≤ (i 1).val ∧ (i 1).val < win0_4.index ⟨(i 0).val / 16, hlt⟩ (1 : Fin 2) * 128 + 128; omega

/-! ## The array after the run, and the run -/

/-- After the 32 points the result array holds `result`. -/
theorem final (c : Dev nD) : (dats m 0 c).arrAt 4 cfg0.N = result m c :=
  (dats m 0 c).arrAt_eq_of_cover 4 (result m c) (fun t _ => flushed_eq m c t) cover

/-- Every weakly fair execution of the idealized kernel terminates with the result array at `result` and the four
    arguments as launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelValue

end
-- ==== Proof.lean ====
/-
  The kernel embeds each of a sample's 256 rows of length 1000 into three numbers by one 3 × 1000 matrix, lays the
  256 triples side by side into a vector of length 768 and sends it through a dense layer with 128 outputs and a bias;
  it does so sixteen samples at a time, as two matrix products into zero accumulators with a change of view between
  them. The reference does the same for all 512 samples at once, with a contraction, a reshape and a second contraction.

  Over the extended reals both are, entry by entry,

      out (s, o) = (Σ_{k < 768} (Σ_{l < 1000} x (s, k / 3, l) · W_emb (k % 3, l)) · W_fc2 (o, k)) + b_fc2 (o),

  the same sums in the same nesting (`Spec.entry`), so the two results agree without any rearrangement and without any
  use of the inputs' finiteness: a product into a zero accumulator is a plain sum, a change of view or a transpose only
  renames indices, and a change of float format is the identity.
  * Spec: that function, once for an array of any number of samples.
  * RefSpec: the reference's seven operations, read at an index, are it.
  * Payload: the block one grid point stores is it, of the sixteen samples the point loaded.
  * Blocks: point `t` loads and stores samples `16 t … 16 t + 15`, the 32 blocks cover the result, so the kernel's result
    array is it, of the whole arguments.
  The three programs run and keep their arguments: the two kernels by their generated frames, the reference by its
  generated run. The idealization rewrote nothing, so there is nothing to preserve.
-/
import proofs.«181206_j13022340841686_1_alg».proof.Defs
import proofs.«181206_j13022340841686_1_alg».proof.Proof.Gen.Kernel
import proofs.«181206_j13022340841686_1_alg».proof.Proof.Gen.Kernel.Skeleton
import proofs.«181206_j13022340841686_1_alg».proof.Proof.Gen.Kernel.Launch
import proofs.«181206_j13022340841686_1_alg».proof.Proof.Gen.Kernel.Points
import proofs.«181206_j13022340841686_1_alg».proof.Proof.Gen.Kernel.Frame
import proofs.«181206_j13022340841686_1_alg».proof.Proof.Gen.KernelIdeal
import proofs.«181206_j13022340841686_1_alg».proof.Proof.Gen.KernelIdeal.Skeleton
import proofs.«181206_j13022340841686_1_alg».proof.Proof.Gen.KernelIdeal.Launch
import proofs.«181206_j13022340841686_1_alg».proof.Proof.Gen.KernelIdeal.Points
import proofs.«181206_j13022340841686_1_alg».proof.Proof.Gen.KernelIdeal.Frame
import proofs.«181206_j13022340841686_1_alg».proof.Proof.Gen.ReferenceIdeal
import proofs.«181206_j13022340841686_1_alg».proof.Proof.Gen.Pre_finite_inputs
import proofs.«181206_j13022340841686_1_alg».proof.Proof.Gen.KernelIdeal.Value
import proofs.«181206_j13022340841686_1_alg».proof.Proof.Gen.ReferenceIdeal.Run
import proofs.«181206_j13022340841686_1_alg».proof.Proof.Gen.ReferenceIdeal.Read
import proofs.«181206_j13022340841686_1_alg».proof.Proof.Spec
import proofs.«181206_j13022340841686_1_alg».proof.Proof.RefSpec
import proofs.«181206_j13022340841686_1_alg».proof.Proof.Payload
import proofs.«181206_j13022340841686_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel over the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the four arguments, the kernel's result array and the reference's both end at
    `Spec.rows` of those arguments. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefSpec.reference_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
